-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x128x64 : Shape := ⟨4, ![16, 128, 128, 64]⟩
abbrev S_ : Shape := ⟨0, ![]⟩

class Facts : Prop where
  bcast_S_S16x128x128x64 : S_.BroadcastsInDim S16x128x128x64 (![] : Fin 0 → Fin S16x128x128x64.rank)
  reducesTo_S16x128x128x64_S_d0_1_2_3 : S16x128x128x64.ReducesTo [0, 1, 2, 3] S_
  h_S_ : 0 < S_.numel

variable [Facts]

def fn_part1 {F : FTy → Type} [FloatOps F] (main_v3 : IVec S_ 1) (main_v6 : IVec S16x128x128x64 32) (main_v15 : IVec S16x128x128x64 1) (main_v17 : IVec S16x128x128x64 32) : IVec S_ 1 :=
  let main_v18 : IVec S16x128x128x64 1 := cmpi .eq main_v17 main_v6
  let main_v19 : IVec S16x128x128x64 1 := andi main_v15 main_v18
  let main_c_4 : IVec S_ 1 := constantI S_ 1 1#1
  let main_v20 : IVec S_ 1 := (fun x v => Host.reduce IntOp.andi x v reducesTo_S16x128x128x64_S_d0_1_2_3 h_S_) main_v19 main_c_4
  let main_v21 : IVec S_ 1 := andi main_v3 main_v20
  main_v21

def fn {F : FTy → Type} [FloatOps F] (main_arg0 : FVec F S16x128x128x64 .f32) (main_arg1 : IVec S16x128x128x64 32) : IVec S_ 1 :=
  let main_v0 : FVec F S16x128x128x64 .f32 := Host.absf main_arg0
  let main_cst : FVec F S_ .f32 := constant S_ .f32 0x7F800000#32
  let main_v1 : FVec F S16x128x128x64 .f32 := broadcastInDim S16x128x128x64 ![] bcast_S_S16x128x128x64 main_cst
  let main_v2 : IVec S16x128x128x64 1 := cmpf .olt main_v0 main_v1
  let main_c : IVec S_ 1 := constantI S_ 1 1#1
  let main_v3 : IVec S_ 1 := (fun x v => Host.reduce IntOp.andi x v reducesTo_S16x128x128x64_S_d0_1_2_3 h_S_) main_v2 main_c
  let main_v4 : IVec S16x128x128x64 32 := iotaInDim S16x128x128x64 32 1
  let main_v5 : IVec S16x128x128x64 32 := iotaInDim S16x128x128x64 32 2
  let main_v6 : IVec S16x128x128x64 32 := iotaInDim S16x128x128x64 32 3
  let main_c_0 : IVec S_ 32 := constantI S_ 32 15#32
  let main_v7 : IVec S16x128x128x64 32 := broadcastInDim S16x128x128x64 ![] bcast_S_S16x128x128x64 main_c_0
  let main_v8 : IVec S16x128x128x64 32 := Host.shrsi main_arg1 main_v7
  let main_v9 : IVec S16x128x128x64 1 := cmpi .eq main_v8 main_v4
  let main_c_1 : IVec S_ 32 := constantI S_ 32 7#32
  let main_v10 : IVec S16x128x128x64 32 := broadcastInDim S16x128x128x64 ![] bcast_S_S16x128x128x64 main_c_1
  let main_v11 : IVec S16x128x128x64 32 := Host.shrsi main_arg1 main_v10
  let main_c_2 : IVec S_ 32 := constantI S_ 32 127#32
  let main_v12 : IVec S16x128x128x64 32 := broadcastInDim S16x128x128x64 ![] bcast_S_S16x128x128x64 main_c_2
  let main_v13 : IVec S16x128x128x64 32 := andi main_v11 main_v12
  let main_v14 : IVec S16x128x128x64 1 := cmpi .eq main_v13 main_v5
  let main_v15 : IVec S16x128x128x64 1 := andi main_v9 main_v14
  let main_c_3 : IVec S_ 32 := constantI S_ 32 63#32
  let main_v16 : IVec S16x128x128x64 32 := broadcastInDim S16x128x128x64 ![] bcast_S_S16x128x128x64 main_c_3
  let main_v17 : IVec S16x128x128x64 32 := andi main_arg1 main_v16
  fn_part1 (F := F) main_v3 main_v6 main_v15 main_v17
-- ==== Kernel.lean ====
abbrev S16x128x128x64 : Shape := ⟨4, ![16, 128, 128, 64]⟩
abbrev S16x256x256x64 : Shape := ⟨4, ![16, 256, 256, 64]⟩
abbrev S1x32x128x64 : Shape := ⟨4, ![1, 32, 128, 64]⟩
abbrev S1x64x256x64 : Shape := ⟨4, ![1, 64, 256, 64]⟩
abbrev S1x32x128x1x64 : Shape := ⟨5, ![1, 32, 128, 1, 64]⟩
abbrev S1x32x128x2x64 : Shape := ⟨5, ![1, 32, 128, 2, 64]⟩
abbrev S1x32x256x64 : Shape := ⟨4, ![1, 32, 256, 64]⟩
abbrev S1x32x1x256x64 : Shape := ⟨5, ![1, 32, 1, 256, 64]⟩
abbrev S1x32x2x256x64 : Shape := ⟨5, ![1, 32, 2, 256, 64]⟩

abbrev nBuf : Space → Nat
  | .hbm => 3
  | .vmem => 6
  | .smem => 0
  | _ => 0

abbrev bufTy : (tb : Table) → Fin (tcTables nBuf tb) → BufTy
  | .hbm, ⟨0, _⟩ => ⟨S16x128x128x64, .f32⟩
  | .hbm, ⟨1, _⟩ => ⟨S16x128x128x64, .i32⟩
  | .hbm, ⟨2, _⟩ => ⟨S16x256x256x64, .f32⟩
  | .local _ .vmem, ⟨0, _⟩ => ⟨S1x32x128x64, .f32⟩
  | .local _ .vmem, ⟨1, _⟩ => ⟨S1x32x128x64, .f32⟩
  | .local _ .vmem, ⟨2, _⟩ => ⟨S1x32x128x64, .i32⟩
  | .local _ .vmem, ⟨3, _⟩ => ⟨S1x32x128x64, .i32⟩
  | .local _ .vmem, ⟨4, _⟩ => ⟨S1x64x256x64, .f32⟩
  | .local _ .vmem, ⟨5, _⟩ => ⟨S1x64x256x64, .f32⟩
  | _, _ => ⟨S16x128x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x128x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x32x128x64_S1x32x128x64_0_0_0_0 : ∀ a, (![0, 0, 0, 0] : Fin 4 → Nat) a + S1x32x128x64.size a ≤ S1x32x128x64.size a
  h_S1x32x128x64 : 0 < S1x32x128x64.numel
  shapeCasts_S1x32x128x64_S1x32x128x1x64 : S1x32x128x64.ShapeCasts S1x32x128x1x64
  concatenates_S1x32x128x1x64_S1x32x128x1x64_S1x32x128x2x64_d3 : Shape.Concatenates [S1x32x128x1x64, S1x32x128x1x64] S1x32x128x2x64 3
  shapeCasts_S1x32x128x2x64_S1x32x256x64 : S1x32x128x2x64.ShapeCasts S1x32x256x64
  shapeCasts_S1x32x256x64_S1x32x1x256x64 : S1x32x256x64.ShapeCasts S1x32x1x256x64
  concatenates_S1x32x1x256x64_S1x32x1x256x64_S1x32x2x256x64_d2 : Shape.Concatenates [S1x32x1x256x64, S1x32x1x256x64] S1x32x2x256x64 2
  shapeCasts_S1x32x2x256x64_S1x64x256x64 : S1x32x2x256x64.ShapeCasts S1x64x256x64
  inb_S1x64x256x64_S1x64x256x64_0_0_0_0 : ∀ a, (![0, 0, 0, 0] : Fin 4 → Nat) a + S1x64x256x64.size a ≤ S1x64x256x64.size a
  h_S1x64x256x64 : 0 < S1x64x256x64.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x128x64.size a ≤ S16x128x128x64.size a
  hwx0_0 : ∀ i : grid0.Coords, EltTy.bits .f32 = 32 ∨ (Rect.block (s := S16x128x128x64) S1x32x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x128x64.size a ≤ S16x128x128x64.size a
  hwx0_1 : ∀ i : grid0.Coords, EltTy.bits .i32 = 32 ∨ (Rect.block (s := S16x128x128x64) S1x32x128x64.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x256x64.size a ≤ S16x256x256x64.size a
  hwx0_2 : ∀ i : grid0.Coords, EltTy.bits .f32 = 32 ∨ (Rect.block (s := S16x256x256x64) S1x64x256x64.size (cc0_transform_2 i) (hinb0_2 i)).WholeWords (EltTy.packing .f32)

variable [Facts₀]

abbrev win0_0 : Pipeline.Window sig grid0 :=
  Pipeline.Window.ofSpec (Memref.whole main_arg0) S1x32x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64x256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x128x128x64 : Shape := ⟨4, ![16, 128, 128, 64]⟩
abbrev S16 : Shape := ⟨1, ![16]⟩
abbrev S_ : Shape := ⟨0, ![]⟩
abbrev S16x1048576 : Shape := ⟨2, ![16, 1048576]⟩
abbrev S16x1 : Shape := ⟨2, ![16, 1]⟩
abbrev S16777216 : Shape := ⟨1, ![16777216]⟩
abbrev S67108864 : Shape := ⟨1, ![67108864]⟩
abbrev S16777216x1 : Shape := ⟨2, ![16777216, 1]⟩
abbrev S16x256x256x64 : Shape := ⟨4, ![16, 256, 256, 64]⟩

abbrev nBuf : Space → Nat
  | .hbm => 24
  | .vmem => 0
  | .smem => 0
  | _ => 0

abbrev bufTy : (tb : Table) → Fin (tcTables nBuf tb) → BufTy
  | .hbm, ⟨0, _⟩ => ⟨S16x128x128x64, .f32⟩
  | .hbm, ⟨1, _⟩ => ⟨S16x128x128x64, .i32⟩
  | .hbm, ⟨2, _⟩ => ⟨S16, .i32⟩
  | .hbm, ⟨3, _⟩ => ⟨S_, .i32⟩
  | .hbm, ⟨4, _⟩ => ⟨S16, .i32⟩
  | .hbm, ⟨5, _⟩ => ⟨S16, .i32⟩
  | .hbm, ⟨6, _⟩ => ⟨S16x1048576, .i32⟩
  | .hbm, ⟨7, _⟩ => ⟨S16x1, .i32⟩
  | .hbm, ⟨8, _⟩ => ⟨S16x1048576, .i32⟩
  | .hbm, ⟨9, _⟩ => ⟨S16x1048576, .i32⟩
  | .hbm, ⟨10, _⟩ => ⟨S16777216, .i32⟩
  | .hbm, ⟨11, _⟩ => ⟨S16777216, .f32⟩
  | .hbm, ⟨12, _⟩ => ⟨S_, .f32⟩
  | .hbm, ⟨13, _⟩ => ⟨S67108864, .f32⟩
  | .hbm, ⟨14, _⟩ => ⟨S_, .i32⟩
  | .hbm, ⟨15, _⟩ => ⟨S16777216, .i32⟩
  | .hbm, ⟨16, _⟩ => ⟨S16777216, .i1⟩
  | .hbm, ⟨17, _⟩ => ⟨S_, .i32⟩
  | .hbm, ⟨18, _⟩ => ⟨S16777216, .i32⟩
  | .hbm, ⟨19, _⟩ => ⟨S16777216, .i32⟩
  | .hbm, ⟨20, _⟩ => ⟨S16777216, .i32⟩
  | .hbm, ⟨21, _⟩ => ⟨S16777216x1, .i32⟩
  | .hbm, ⟨22, _⟩ => ⟨S67108864, .f32⟩
  | .hbm, ⟨23, _⟩ => ⟨S16x256x256x64, .f32⟩
  | _, _ => ⟨S16x128x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  bcast_S_S16 : S_.BroadcastsInDim S16 (![] : Fin 0 → Fin S16.rank)
  shapeCasts_S16x128x128x64_S16x1048576 : S16x128x128x64.ShapeCasts S16x1048576
  bcast_S16_S16x1_0 : S16.BroadcastsInDim S16x1 (![0] : Fin 1 → Fin S16x1.rank)
  bcast_S16x1_S16x1048576_0_1 : S16x1.BroadcastsInDim S16x1048576 (![0, 1] : Fin 2 → Fin S16x1048576.rank)
  shapeCasts_S16x1048576_S16777216 : S16x1048576.ShapeCasts S16777216
  shapeCasts_S16x128x128x64_S16777216 : S16x128x128x64.ShapeCasts S16777216
  bcast_S_S67108864 : S_.BroadcastsInDim S67108864 (![] : Fin 0 → Fin S67108864.rank)
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S67108864_S16x256x256x64 : S67108864.ShapeCasts S16x256x256x64
  scatter_S67108864_S16777216x1_S16777216_n_0_0_1_wf : ScatterDims.WF S67108864 S16777216x1 S16777216 [] [0] [0] 1

variable [Facts₀]

def scatter_S67108864_S16777216x1_S16777216_n_0_0_1 : ScatterDims S67108864 S16777216x1 S16777216 where
  updateWindowDims := []
  insertedWindowDims := [0]
  scatterDimsToOperandDims := [0]
  indexVectorDim := 1
  wf := scatter_S67108864_S16777216x1_S16777216_n_0_0_1_wf

class Facts : Prop extends Facts₀ where

variable [Facts]
-- ==== Proof.Spec.lean ====
/-
  Max-unpooling over 2×2 windows, as ONE function of the two argument arrays.

  The pooled array `x` has shape [16, 128, 128, 64] (batch, row, column, channel) and the output shape
  [16, 256, 256, 64]. Output cell (b, r, q, ch) belongs to the pooled cell (b, r / 2, q / 2, ch): the cell whose 2×2
  window holds it. The index word `a` recorded for a pooled cell is a flat position (row · 256 + column) · 64 + channel
  inside one batch of the output, so its bit 14 is the parity of the row and its bit 6 the parity of the column.
  The unpooled array holds the pooled value at the one cell of the window whose two parities are those two bits, and
  zero at the other three.

  `InWindow a h w c` says that the word `a` recorded for the pooled cell (·, h, w, c) really is a flat position inside
  that cell's own window and channel: row / 2 = h, column / 2 = w, channel = c. It also bounds the word below 2²².
-/
import Idealize.ShloMosaic.PureOps.Ideal
import Idealize.ShloMosaic.Lib.ValueIdx
import Idealize.ShloMosaic.Lib.ValueIdxCoords

noncomputable section

namespace Cert.Unpool

open Idealize.ShloMosaic Idealize.ShloMosaic.ValueIdx

/-- The pooled array's shape. -/
abbrev SIn : Shape := ⟨4, ![16, 128, 128, 64]⟩
/-- The unpooled array's shape. -/
abbrev SOut : Shape := ⟨4, ![16, 256, 256, 64]⟩

/-- Bit 14 of an index word, as a word: the parity of the output row it names. -/
def rowBit (a : BitVec 32) : BitVec 32 := IntOp.andi (IntOp.shrsi .vector a 14#32) 1#32
/-- Bit 6 of an index word, as a word: the parity of the output column it names. -/
def colBit (a : BitVec 32) : BitVec 32 := IntOp.andi (IntOp.shrsi .vector a 6#32) 1#32

/-- The pooled cell whose 2×2 window holds output cell `i`. -/
def src (i : SOut.Idx) : SIn.Idx :=
  ix4 (n0 := 16) (n1 := 128) (n2 := 128) (n3 := 64) ⟨(i 0).val, (i 0).isLt⟩
    ⟨(i 1).val / 2, by have h : (i 1).val < 256 := (i 1).isLt; omega⟩
    ⟨(i 2).val / 2, by have h : (i 2).val < 256 := (i 2).isLt; omega⟩
    ⟨(i 3).val, (i 3).isLt⟩

/-- The unpooled array: at output cell `i`, the pooled value of `i`'s window when the recorded word's two parity bits
    are `i`'s row and column parities, and zero otherwise. -/
def unpool (x : FVec Ideal SIn .f32) (am : IVec SIn 32) : FVec Ideal SOut .f32 := fun i =>
  if (rowBit (am (src i))).toNat = (i 1).val % 2 ∧ (colBit (am (src i))).toNat = (i 2).val % 2 then x (src i) else 0

/-- The word `a` is a flat position (row · 256 + column) · 64 + channel with row / 2 = `h`, column / 2 = `w` and
    channel = `c`. -/
def InWindow (a : BitVec 32) (h w c : Nat) : Prop :=
  a.toNat / 32768 = h ∧ a.toNat / 128 % 128 = w ∧ a.toNat % 64 = c

end Cert.Unpool

end
-- ==== Proof.Bits.lean ====
/-
  Word arithmetic for index words below 2³¹: an arithmetic right shift is a division by a power of two, a mask by
  2ᵏ − 1 a remainder, and three such equations pin the word down to its window.
-/
import proofs.«429550_j46840913330177_3_alg».proof.Proof.Spec

noncomputable section

namespace Cert.Unpool

open Idealize.ShloMosaic

/-- A word below 2³¹ has its sign bit clear. -/
private theorem msb_false_of_lt {a : BitVec 32} (ha : a.toNat < 2 ^ 31) : a.msb = false := by
  rw [BitVec.msb_eq_false_iff_two_mul_lt]
  omega

/-- For a word below 2³¹ and an amount below 32, the arithmetic right shift is the quotient by 2ᵏ. -/
private theorem shrsi_toNat (u : ArithUnit) (a : BitVec 32) (k : Nat) (hk : k < 32) (ha : a.toNat < 2 ^ 31) :
    (IntOp.shrsi u a (BitVec.ofNat 32 k)).toNat = a.toNat / 2 ^ k := by
  have hk' : (BitVec.ofNat 32 k).toNat = k := by
    rw [BitVec.toNat_ofNat]
    omega
  unfold IntOp.shrsi
  rw [if_pos (by rw [hk']; exact hk), BitVec.toNat_sshiftRight'_of_msb_false (msb_false_of_lt ha), hk',
    Nat.shiftRight_eq_div_pow]

/-- A mask by 2ᵏ − 1 is the remainder by 2ᵏ. -/
private theorem andi_toNat (x : BitVec 32) (m k : Nat) (hm : m = 2 ^ k - 1) (hk : k ≤ 32) :
    (IntOp.andi x (BitVec.ofNat 32 m)).toNat = x.toNat % 2 ^ k := by
  subst hm
  have h1 : 2 ^ k ≤ 2 ^ 32 := Nat.pow_le_pow_right (by omega) hk
  have h2 : 0 < 2 ^ k := Nat.two_pow_pos k
  unfold IntOp.andi
  rw [BitVec.toNat_and, BitVec.toNat_ofNat, Nat.mod_eq_of_lt (by omega), Nat.and_two_pow_sub_one_eq_mod]

/-- For a word below 2³¹ the row-parity word is 0 or 1: the parity of the word's quotient by 2¹⁴. -/
theorem rowBit_toNat (a : BitVec 32) (ha : a.toNat < 2 ^ 31) : (rowBit a).toNat = a.toNat / 16384 % 2 := by
  unfold rowBit
  rw [andi_toNat _ 1 1 rfl (by omega), shrsi_toNat .vector a 14 (by omega) ha]
  rfl

/-- For a word below 2³¹ the column-parity word is 0 or 1: the parity of the word's quotient by 2⁶. -/
theorem colBit_toNat (a : BitVec 32) (ha : a.toNat < 2 ^ 31) : (colBit a).toNat = a.toNat / 64 % 2 := by
  unfold colBit
  rw [andi_toNat _ 1 1 rfl (by omega), shrsi_toNat .vector a 6 (by omega) ha]
  rfl

/-- The three word equations of the contract — the word shifted right by 15 is `h`, shifted right by 7 and masked
    by 127 is `w`, masked by 63 is `c` — say that the word lies in the window of (`h`, `w`, `c`). The shifts are
    the host's arithmetic right shifts. -/
theorem inWindow_of_words (a : BitVec 32) (h w c : Nat) (hh : h < 128) (hw : w < 128) (hc : c < 64)
    (e1 : IntOp.shrsi .host a 15#32 = BitVec.ofNat 32 h)
    (e2 : IntOp.andi (IntOp.shrsi .host a 7#32) 127#32 = BitVec.ofNat 32 w)
    (e3 : IntOp.andi a 63#32 = BitVec.ofNat 32 c) : InWindow a h w c := by
  -- the sign bit of the word is clear: an arithmetic shift keeps the sign bit, and the small word `h` has none
  have ha : a.toNat < 2 ^ 31 := by
    have hm : a.msb = false := by
      have e := congrArg BitVec.msb e1
      have h15 : (15#32 : BitVec 32).toNat < 32 := by decide
      unfold IntOp.shrsi at e
      rw [if_pos h15, BitVec.msb_sshiftRight'] at e
      rw [e, BitVec.msb_eq_false_iff_two_mul_lt, BitVec.toNat_ofNat]
      omega
    have := BitVec.msb_eq_false_iff_two_mul_lt.mp hm
    omega
  have t1 := congrArg BitVec.toNat e1
  rw [shrsi_toNat .host a 15 (by omega) ha, BitVec.toNat_ofNat] at t1
  have t2 := congrArg BitVec.toNat e2
  rw [andi_toNat _ 127 7 rfl (by omega), shrsi_toNat .host a 7 (by omega) ha, BitVec.toNat_ofNat] at t2
  have t3 := congrArg BitVec.toNat e3
  rw [andi_toNat _ 63 6 rfl (by omega), BitVec.toNat_ofNat] at t3
  unfold InWindow
  refine ⟨?_, ?_, ?_⟩ <;> omega

/-- A word in a window is below 2²². -/
theorem InWindow.lt {a : BitVec 32} {h w c : Nat} (hin : InWindow a h w c) (hh : h < 128) : a.toNat < 4194304 := by
  obtain ⟨h1, _, _⟩ := hin
  omega

end Cert.Unpool

end
-- ==== Proof.Window.lean ====
/-
  The precondition, read back: where it holds, every index word lies in the window of its own pooled cell.

  The precondition is the conjunction of "every float input is finite" and one `all` over the pooled array's cells of
  three word equations per cell (b, h, w, c): the word shifted right by 15 equals h, shifted right by 7 and masked by
  127 equals w, masked by 63 equals c — the right-hand sides being the cell's own coordinates, printed as iotas.
-/
import proofs.«429550_j46840913330177_3_alg».proof.Pre_finite_inputs
import proofs.«429550_j46840913330177_3_alg».proof.Proof.Bits
import Idealize.ShloMosaic.Lib.ReduceAll
import Idealize.ShloMosaic.Lib.StableHlo.Predicate

noncomputable section

namespace Cert.Unpool

open Idealize.ShloMosaic

/-- Where the precondition holds of the pair (pooled values, index words), the index word of every pooled cell lies
    in that cell's own window. -/
theorem window_of_pre {F : FTy → Type} [FloatOps F] [Cert.Pre_finite_inputs.Facts]
    (x : FVec F SIn .f32) (am : IVec SIn 32)
    (hpre : Cert.Pre_finite_inputs.fn (F := F) x am = fun _ => 1#1) (j : SIn.Idx) :
    InWindow (am j) (j 1).val (j 2).val (j 3).val := by
  haveI : Subsingleton Cert.Pre_finite_inputs.S_.Idx := ⟨fun a b => funext fun d => d.elim0⟩
  -- the one element of the rank-zero result is 1
  have h0 := congrFun hpre (fun a => a.elim0)
  dsimp only [Cert.Pre_finite_inputs.fn, Cert.Pre_finite_inputs.fn_part1] at h0
  -- its second conjunct is the `all` over the cells; read it at the cell `j`
  have h1 := (IntOp.andi_eq_one.1 h0).2
  have h2 := Host.reduce_andi_all _ _ _ _ _ h1 j
  -- the cell's three comparisons
  obtain ⟨h3, h4⟩ := IntOp.andi_eq_one.1 h2
  obtain ⟨h5, h6⟩ := IntOp.andi_eq_one.1 h3
  have e1 := StableHlo.Predicate.cmpi_eq_iff.1 h5
  have e2 := StableHlo.Predicate.cmpi_eq_iff.1 h6
  have e3 := StableHlo.Predicate.cmpi_eq_iff.1 h4
  -- a scalar broadcast reads its constant at every cell, an iota the cell's own coordinate
  have e1' : IntOp.shrsi .host (am j) 15#32 = BitVec.ofNat 32 (j 1).val := e1
  have e2' : IntOp.andi (IntOp.shrsi .host (am j) 7#32) 127#32 = BitVec.ofNat 32 (j 2).val := e2
  have e3' : IntOp.andi (am j) 63#32 = BitVec.ofNat 32 (j 3).val := e3
  have b1 : (j 1).val < 128 := (j 1).isLt
  have b2 : (j 2).val < 128 := (j 2).isLt
  have b3 : (j 3).val < 64 := (j 3).isLt
  exact inWindow_of_words (am j) _ _ _ b1 b2 b3 e1' e2' e3'

end Cert.Unpool

end
-- ==== Proof.KernelValue.lean ====
/-
  What the kernel leaves in its output array: the unpooled array, for ANY index words.

  Grid point (b, k) reads rows 32k … 32k + 31 of batch b of both inputs and writes rows 64k … 64k + 63 of batch b of
  the output. Inside the block, output row r and column q are made by two interleavings: the four masked copies of
  the input block — the input where the word's row and column parity bits are (0,0), (0,1), (1,0), (1,1), zero
  elsewhere — are laid side by side on a new axis of extent two after the column axis (column parity), that axis is
  merged into the column axis, and the two results are laid side by side on a new axis of extent two after the row
  axis (row parity), merged into the row axis. So cell (r, q, ch) of the block is the masked copy with parities
  (r mod 2, q mod 2) at (r / 2, q / 2, ch).
-/
import proofs.«429550_j46840913330177_3_alg».proof.Proof.Gen.KernelIdeal.Value
import proofs.«429550_j46840913330177_3_alg».proof.Proof.Spec
import Idealize.ShloMosaic.Lib.Pipeline.Value
import Idealize.ShloMosaic.Lib.ValueIdx
import Idealize.ShloMosaic.PureOps.Ideal.Laws

noncomputable section

namespace Cert.KernelIdeal.Unpooled

open Cert.KernelIdeal Cert.KernelIdeal.Gen Idealize.ShloMosaic Idealize.ShloMosaic.TcCoe Idealize.SL.Sem
open Idealize.ShloMosaic.Pipeline (Dat)

/-! ## One block, cell by cell -/

section Cells

open Idealize.ShloMosaic.ValueIdx

variable {α : Type}

/-- A new axis of extent one after the column axis does not move a cell. -/
private theorem unitAfterCol_apply (y : S1x32x128x64.Idx → α) (h : S1x32x128x64.ShapeCasts S1x32x128x1x64)
    (r : Fin 32) (w : Fin 128) (ch : Fin 64) :
    shapeCast S1x32x128x1x64 y h (ix5 (0 : Fin 1) r w (0 : Fin 1) ch) = y (ix4 (0 : Fin 1) r w ch) := by
  refine shapeCast_apply y h _ _ ?_
  rw [Shape.rowMajor_val_four, Shape.rowMajor_val_five]
  show (((0 * 32 + r.val) * 128 + w.val) * 64 + ch.val) = ((((0 * 32 + r.val) * 128 + w.val) * 1 + 0) * 64 + ch.val)
  omega

/-- A new axis of extent one after the row axis does not move a cell. -/
private theorem unitAfterRow_apply (z : S1x32x256x64.Idx → α) (h : S1x32x256x64.ShapeCasts S1x32x1x256x64)
    (r : Fin 32) (q : Fin 256) (ch : Fin 64) :
    shapeCast S1x32x1x256x64 z h (ix5 (0 : Fin 1) r (0 : Fin 1) q ch) = z (ix4 (0 : Fin 1) r q ch) := by
  refine shapeCast_apply z h _ _ ?_
  rw [Shape.rowMajor_val_four, Shape.rowMajor_val_five]
  show (((0 * 32 + r.val) * 256 + q.val) * 64 + ch.val) = ((((0 * 32 + r.val) * 1 + 0) * 256 + q.val) * 64 + ch.val)
  omega

/-- Two blocks laid side by side on a new axis after the column axis, that axis then merged into the column axis:
    column q of the result is column q / 2 of the block that q's parity names. -/
private theorem interleaveCols_apply (y0 y1 : S1x32x128x64.Idx → α)
    (h1 : S1x32x128x64.ShapeCasts S1x32x128x1x64)
    (hc : Shape.Concatenates [S1x32x128x1x64, S1x32x128x1x64] S1x32x128x2x64 3)
    (h2 : S1x32x128x2x64.ShapeCasts S1x32x256x64)
    (r : Fin 32) (q : Fin 256) (ch : Fin 64) :
    shapeCast S1x32x256x64 (concatenate S1x32x128x2x64 3
        [⟨S1x32x128x1x64, shapeCast S1x32x128x1x64 y0 h1⟩, ⟨S1x32x128x1x64, shapeCast S1x32x128x1x64 y1 h1⟩] hc) h2
        (ix4 (0 : Fin 1) r q ch)
      = if q.val % 2 = 0 then y0 (ix4 (0 : Fin 1) r ⟨q.val / 2, by have := q.isLt; omega⟩ ch)
        else y1 (ix4 (0 : Fin 1) r ⟨q.val / 2, by have := q.isLt; omega⟩ ch) := by
  have hq := q.isLt
  have hw : q.val / 2 < 128 := by omega
  by_cases hp : q.val % 2 = 0
  · rw [if_pos hp]
    refine (shapeCast_apply _ h2 (ix4 (0 : Fin 1) r q ch) (ix5 (0 : Fin 1) r ⟨q.val / 2, hw⟩ (0 : Fin 2) ch) ?_).trans ?_
    · rw [Shape.rowMajor_val_five, Shape.rowMajor_val_four]
      show ((((0 * 32 + r.val) * 128 + q.val / 2) * 2 + 0) * 64 + ch.val) = (((0 * 32 + r.val) * 256 + q.val) * 64 + ch.val)
      omega
    · refine (concatenate_pair_apply_left (3 : Fin S1x32x128x2x64.rank) _ _ hc _ rfl
        (ix5 (0 : Fin 1) r ⟨q.val / 2, hw⟩ (0 : Fin 1) ch) ?_).trans (unitAfterCol_apply y0 h1 r ⟨q.val / 2, hw⟩ ch)
      intro b
      match b with
      | ⟨0, _⟩ => rfl
      | ⟨1, _⟩ => rfl
      | ⟨2, _⟩ => rfl
      | ⟨3, _⟩ => rfl
      | ⟨4, _⟩ => rfl
  · rw [if_neg hp]
    refine (shapeCast_apply _ h2 (ix4 (0 : Fin 1) r q ch) (ix5 (0 : Fin 1) r ⟨q.val / 2, hw⟩ (1 : Fin 2) ch) ?_).trans ?_
    · rw [Shape.rowMajor_val_five, Shape.rowMajor_val_four]
      show ((((0 * 32 + r.val) * 128 + q.val / 2) * 2 + 1) * 64 + ch.val) = (((0 * 32 + r.val) * 256 + q.val) * 64 + ch.val)
      omega
    · refine (concatenate_pair_apply_right (3 : Fin S1x32x128x2x64.rank) _ _ hc _ rfl rfl
        (ix5 (0 : Fin 1) r ⟨q.val / 2, hw⟩ (0 : Fin 1) ch) ?_ ?_).trans (unitAfterCol_apply y1 h1 r ⟨q.val / 2, hw⟩ ch)
      · intro b hb
        match b, hb with
        | ⟨0, _⟩, _ => rfl
        | ⟨1, _⟩, _ => rfl
        | ⟨2, _⟩, _ => rfl
        | ⟨3, _⟩, hb => exact absurd rfl hb
        | ⟨4, _⟩, _ => rfl
      · rfl

/-- Two blocks laid side by side on a new axis after the row axis, that axis then merged into the row axis: row r of
    the result is row r / 2 of the block that r's parity names. -/
private theorem interleaveRows_apply (z0 z1 : S1x32x256x64.Idx → α)
    (h3 : S1x32x256x64.ShapeCasts S1x32x1x256x64)
    (hc : Shape.Concatenates [S1x32x1x256x64, S1x32x1x256x64] S1x32x2x256x64 2)
    (h4 : S1x32x2x256x64.ShapeCasts S1x64x256x64)
    (r : Fin 64) (q : Fin 256) (ch : Fin 64) :
    shapeCast S1x64x256x64 (concatenate S1x32x2x256x64 2
        [⟨S1x32x1x256x64, shapeCast S1x32x1x256x64 z0 h3⟩, ⟨S1x32x1x256x64, shapeCast S1x32x1x256x64 z1 h3⟩] hc) h4
        (ix4 (0 : Fin 1) r q ch)
      = if r.val % 2 = 0 then z0 (ix4 (0 : Fin 1) ⟨r.val / 2, by have := r.isLt; omega⟩ q ch)
        else z1 (ix4 (0 : Fin 1) ⟨r.val / 2, by have := r.isLt; omega⟩ q ch) := by
  have hr := r.isLt
  have hh : r.val / 2 < 32 := by omega
  by_cases hp : r.val % 2 = 0
  · rw [if_pos hp]
    refine (shapeCast_apply _ h4 (ix4 (0 : Fin 1) r q ch) (ix5 (0 : Fin 1) ⟨r.val / 2, hh⟩ (0 : Fin 2) q ch) ?_).trans ?_
    · rw [Shape.rowMajor_val_five, Shape.rowMajor_val_four]
      show ((((0 * 32 + r.val / 2) * 2 + 0) * 256 + q.val) * 64 + ch.val) = (((0 * 64 + r.val) * 256 + q.val) * 64 + ch.val)
      omega
    · refine (concatenate_pair_apply_left (2 : Fin S1x32x2x256x64.rank) _ _ hc _ rfl
        (ix5 (0 : Fin 1) ⟨r.val / 2, hh⟩ (0 : Fin 1) q ch) ?_).trans (unitAfterRow_apply z0 h3 ⟨r.val / 2, hh⟩ q ch)
      intro b
      match b with
      | ⟨0, _⟩ => rfl
      | ⟨1, _⟩ => rfl
      | ⟨2, _⟩ => rfl
      | ⟨3, _⟩ => rfl
      | ⟨4, _⟩ => rfl
  · rw [if_neg hp]
    refine (shapeCast_apply _ h4 (ix4 (0 : Fin 1) r q ch) (ix5 (0 : Fin 1) ⟨r.val / 2, hh⟩ (1 : Fin 2) q ch) ?_).trans ?_
    · rw [Shape.rowMajor_val_five, Shape.rowMajor_val_four]
      show ((((0 * 32 + r.val / 2) * 2 + 1) * 256 + q.val) * 64 + ch.val) = (((0 * 64 + r.val) * 256 + q.val) * 64 + ch.val)
      omega
    · refine (concatenate_pair_apply_right (2 : Fin S1x32x2x256x64.rank) _ _ hc _ rfl rfl
        (ix5 (0 : Fin 1) ⟨r.val / 2, hh⟩ (0 : Fin 1) q ch) ?_ ?_).trans (unitAfterRow_apply z1 h3 ⟨r.val / 2, hh⟩ q ch)
      · intro b hb
        match b, hb with
        | ⟨0, _⟩, _ => rfl
        | ⟨1, _⟩, _ => rfl
        | ⟨2, _⟩, hb => exact absurd rfl hb
        | ⟨3, _⟩, _ => rfl
        | ⟨4, _⟩, _ => rfl
      · rfl

/-- The conjunction of two comparison bits is the bit 1 exactly when both comparisons hold. -/
private theorem andi_ofBool_eq_one (b1 b2 : Bool) :
    IntOp.andi (BitVec.ofBool b1) (BitVec.ofBool b2) = 1 ↔ b1 = true ∧ b2 = true := by
  cases b1 <;> cases b2 <;> decide

/-- A word equals the word of a number below two exactly when its value is that number. -/
private theorem word_eq_iff (a : BitVec 32) (n : Nat) (hn : n < 2) : a = BitVec.ofNat 32 n ↔ a.toNat = n := by
  rw [← BitVec.toNat_inj, BitVec.toNat_ofNat, Nat.mod_eq_of_lt (by omega)]

/-- The block with every cell zeroed but those whose index word has row parity `p` and column parity `c`, read at a
    cell: the two parity words of the kernel are the specification's two parity bits of the cell's word. -/
private theorem masked_apply (x0 : Vec Ideal S1x32x128x64 .f32) (x1 : Vec Ideal S1x32x128x64 .i32)
    (P C : IVec S1x32x128x64 32) (p c : BitVec 32) (j : S1x32x128x64.Idx) (hP : P j = p) (hC : C j = c) :
    select (andi (cmpi .eq (k0_pay2 x1) P) (cmpi .eq (k0_pay3 x1) C)) x0
        (broadcast S1x32x128x64 (Scalar.ofBits (F := Ideal) .f32 0x00000000#32) : FVec Ideal S1x32x128x64 .f32) j
      = if Cert.Unpool.rowBit (x1 j) = p ∧ Cert.Unpool.colBit (x1 j) = c then x0 j else 0 := by
  show (if IntOp.andi (BitVec.ofBool (Cert.Unpool.rowBit (x1 j) == P j)) (BitVec.ofBool (Cert.Unpool.colBit (x1 j) == C j)) = 1
        then x0 j else Ideal.ofBits .f32 0x00000000#32) = _
  rw [hP, hC, Ideal.ofBits_zero_f32]
  refine if_congr ?_ rfl rfl
  rw [andi_ofBool_eq_one, beq_iff_eq, beq_iff_eq]

/-- The even output rows of a block: pooled row `h` spread over the 256 output columns, a cell kept where its word's
    row parity is 0 and its column parity is the output column's. -/
private theorem evenRows_apply (x0 : Vec Ideal S1x32x128x64 .f32) (x1 : Vec Ideal S1x32x128x64 .i32)
    (h : Fin 32) (q : Fin 256) (ch : Fin 64) :
    k0_pay4 x0 x1 (ix4 (0 : Fin 1) h q ch)
      = if Cert.Unpool.rowBit (x1 (ix4 (0 : Fin 1) h ⟨q.val / 2, by have := q.isLt; omega⟩ ch)) = 0#32
            ∧ (Cert.Unpool.colBit (x1 (ix4 (0 : Fin 1) h ⟨q.val / 2, by have := q.isLt; omega⟩ ch))).toNat = q.val % 2
        then x0 (ix4 (0 : Fin 1) h ⟨q.val / 2, by have := q.isLt; omega⟩ ch) else 0 := by
  have hq := q.isLt
  refine (interleaveCols_apply _ _ shapeCasts_S1x32x128x64_S1x32x128x1x64
    concatenates_S1x32x128x1x64_S1x32x128x1x64_S1x32x128x2x64_d3 shapeCasts_S1x32x128x2x64_S1x32x256x64 h q ch).trans ?_
  by_cases hp : q.val % 2 = 0
  · rw [if_pos hp]
    refine (masked_apply x0 x1 _ _ 0#32 0#32 _ rfl rfl).trans ?_
    refine if_congr (and_congr Iff.rfl ?_) rfl rfl
    rw [hp]; exact word_eq_iff _ 0 (by omega)
  · have hp1 : q.val % 2 = 1 := by omega
    rw [if_neg hp]
    refine (masked_apply x0 x1 _ _ 0#32 1#32 _ rfl rfl).trans ?_
    refine if_congr (and_congr Iff.rfl ?_) rfl rfl
    rw [hp1]; exact word_eq_iff _ 1 (by omega)

/-- What the kernel's body stores, cell by cell: output cell (r, q, ch) of the block is the pooled cell
    (r / 2, q / 2, ch) where that cell's word has the parities of r and q, and zero elsewhere. -/
private theorem block_apply (x0 : Vec Ideal S1x32x128x64 .f32) (x1 : Vec Ideal S1x32x128x64 .i32)
    (r : Fin 64) (q : Fin 256) (ch : Fin 64) :
    k0_pay1 x0 (k0_pay2 x1) (k0_pay3 x1) (k0_pay4 x0 x1) (k0_pay5 x0 x1) k0_pay6 (ix4 (0 : Fin 1) r q ch)
      = if (Cert.Unpool.rowBit (x1 (ix4 (0 : Fin 1) ⟨r.val / 2, by have := r.isLt; omega⟩ ⟨q.val / 2, by have := q.isLt; omega⟩ ch))).toNat = r.val % 2
            ∧ (Cert.Unpool.colBit (x1 (ix4 (0 : Fin 1) ⟨r.val / 2, by have := r.isLt; omega⟩ ⟨q.val / 2, by have := q.isLt; omega⟩ ch))).toNat = q.val % 2
        then x0 (ix4 (0 : Fin 1) ⟨r.val / 2, by have := r.isLt; omega⟩ ⟨q.val / 2, by have := q.isLt; omega⟩ ch) else 0 := by
  have hr := r.isLt
  have hq := q.isLt
  have hh : r.val / 2 < 32 := by omega
  refine (interleaveRows_apply _ _ shapeCasts_S1x32x256x64_S1x32x1x256x64
    concatenates_S1x32x1x256x64_S1x32x1x256x64_S1x32x2x256x64_d2 shapeCasts_S1x32x2x256x64_S1x64x256x64 r q ch).trans ?_
  by_cases hp : r.val % 2 = 0
  · rw [if_pos hp]
    refine (evenRows_apply x0 x1 ⟨r.val / 2, hh⟩ q ch).trans ?_
    refine if_congr (and_congr ?_ Iff.rfl) rfl rfl
    rw [hp]; exact word_eq_iff _ 0 (by omega)
  · have hp1 : r.val % 2 = 1 := by omega
    rw [if_neg hp]
    refine (interleaveCols_apply _ _ shapeCasts_S1x32x128x64_S1x32x128x1x64
      concatenates_S1x32x128x1x64_S1x32x128x1x64_S1x32x128x2x64_d3 shapeCasts_S1x32x128x2x64_S1x32x256x64
      ⟨r.val / 2, hh⟩ q ch).trans ?_
    by_cases hc : q.val % 2 = 0
    · rw [if_pos hc]
      refine (masked_apply x0 x1 _ _ 1#32 0#32 _ rfl rfl).trans ?_
      refine if_congr (and_congr ?_ ?_) rfl rfl
      · rw [hp1]; exact word_eq_iff _ 1 (by omega)
      · rw [hc]; exact word_eq_iff _ 0 (by omega)
    · have hc1 : q.val % 2 = 1 := by omega
      rw [if_neg hc]
      refine (masked_apply x0 x1 _ _ 1#32 1#32 _ rfl rfl).trans ?_
      refine if_congr (and_congr ?_ ?_) rfl rfl
      · rw [hp1]; exact word_eq_iff _ 1 (by omega)
      · rw [hc1]; exact word_eq_iff _ 1 (by omega)

/-- A block's cells against the arrays: if the two input blocks are rows 32k … 32k + 31 of batch b of the two argument
    arrays, cell j of what the body stores is the unpooled array at row 64k + (j 1), column (j 2), channel (j 3) of
    batch b. -/
private theorem stored_cell (x0 : Vec Ideal S1x32x128x64 .f32) (x1 : Vec Ideal S1x32x128x64 .i32)
    (A0 : FVec Ideal Cert.Unpool.SIn .f32) (A1 : IVec Cert.Unpool.SIn 32) (b k : Nat)
    (hx0 : ∀ (y : S1x32x128x64.Idx) (i' : Cert.Unpool.SIn.Idx), (i' 0).val = b → (i' 1).val = k * 32 + (y 1).val →
        (i' 2).val = (y 2).val → (i' 3).val = (y 3).val → x0 y = A0 i')
    (hx1 : ∀ (y : S1x32x128x64.Idx) (i' : Cert.Unpool.SIn.Idx), (i' 0).val = b → (i' 1).val = k * 32 + (y 1).val →
        (i' 2).val = (y 2).val → (i' 3).val = (y 3).val → x1 y = A1 i')
    (j : S1x64x256x64.Idx) (i : Cert.Unpool.SOut.Idx)
    (h0 : (i 0).val = b) (h1 : (i 1).val = k * 64 + (j 1).val) (h2 : (i 2).val = (j 2).val) (h3 : (i 3).val = (j 3).val) :
    k0_pay1 x0 (k0_pay2 x1) (k0_pay3 x1) (k0_pay4 x0 x1) (k0_pay5 x0 x1) k0_pay6 j = Cert.Unpool.unpool A0 A1 i := by
  obtain ⟨u, r, q, ch, rfl⟩ : ∃ (u : Fin 1) (r : Fin 64) (q : Fin 256) (ch : Fin 64), j = ix4 u r q ch :=
    ⟨j 0, j 1, j 2, j 3, eq_ix4 j⟩
  obtain rfl : u = 0 := Fin.fin_one_eq_zero u
  have hr := r.isLt
  have hq := q.isLt
  have h1' : (i 1).val = k * 64 + r.val := h1
  have h2' : (i 2).val = q.val := h2
  have h3' : (i 3).val = ch.val := h3
  rw [block_apply]
  unfold Cert.Unpool.unpool
  have e0 := hx0 (ix4 (0 : Fin 1) ⟨r.val / 2, by omega⟩ ⟨q.val / 2, by omega⟩ ch) (Cert.Unpool.src i)
    (show (i 0).val = b from h0) (show (i 1).val / 2 = k * 32 + r.val / 2 by omega)
    (show (i 2).val / 2 = q.val / 2 by omega) (show (i 3).val = ch.val from h3')
  have e1 := hx1 (ix4 (0 : Fin 1) ⟨r.val / 2, by omega⟩ ⟨q.val / 2, by omega⟩ ch) (Cert.Unpool.src i)
    (show (i 0).val = b from h0) (show (i 1).val / 2 = k * 32 + r.val / 2 by omega)
    (show (i 2).val / 2 = q.val / 2 by omega) (show (i 3).val = ch.val from h3')
  have p1 : (i 1).val % 2 = r.val % 2 := by omega
  have p2 : (i 2).val % 2 = q.val % 2 := by omega
  rw [e0, e1, p1, p2]

end Cells

/-! ## From the blocks to the array -/

variable (m : (ℓ : Loc nD τ sig) → Buf (Elt Ideal) ℓ) (ρ : Dev nD → PrngReg)

private theorem zeroOffsets : (![0, 0, 0, 0] : Fin 4 → Nat) = fun _ => 0 := funext fun a => by fin_cases a <;> rfl

/-- The three index maps, decided over the 64 grid points: both inputs' blocks sit at the output's block index, which
    is (batch, row block, 0, 0). -/
private theorem index_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = win0_2.index t (1 : Fin 4)
    ∧ win0_1.index t (2 : Fin 4) = 0 ∧ win0_1.index t (3 : Fin 4) = 0
    ∧ win0_2.index t (2 : Fin 4) = 0 ∧ win0_2.index t (3 : Fin 4) = 0 :=
  (by decide +kernel : ∀ t : Fin grid0.N, _)

/-- Every (batch, row block) is some grid point's block index. -/
private theorem index_onto : ∀ (b : Fin 16) (k : Fin 4), ∃ t : Fin cfg0.N, win0_2.index t = ![b.val, k.val, 0, 0] :=
  (by decide +kernel : ∀ (b : Fin 16) (k : Fin 4), ∃ t : Fin grid0.N, win0_2.index t = ![b.val, k.val, 0, 0])

/-- What grid point `t` writes back is block `t` of the unpooled array of the arguments. -/
private theorem flushed_eq (c : Dev nD) (t : Fin cfg0.N) :
    (dats m 0 c).flushed 2 t = ((cfg0.win 2).blk t).view.read (Elt Ideal)
      (Cert.Unpool.unpool (m ((c : Thread nD τ).loc main_arg0)) (m ((c : Thread nD τ).loc main_arg1))) := by
  rw [Value.flushed2 m c t]
  unfold Gen.out0_2
  rw [View.canon_unit_zero zeroOffsets]
  simp only [View.ld_unit_zero (S := S1x32x128x64) zeroOffsets]
  obtain ⟨e00, e01, e02, e03, e10, e11, e12, e13, e22, e23⟩ := index_facts t
  funext j
  refine stored_cell (iblk m c 0 t) (iblk m c 1 t) (V m c main_arg0) (V m c main_arg1)
    (win0_2.index t (0 : Fin 4)) (win0_2.index t (1 : Fin 4)) ?_ ?_ j (((cfg0.win 2).blk t).view.emb j) ?_ ?_ ?_ ?_
  · intro y i' g0 g1 g2 g3
    show V m c main_arg0 (((cfg0.win 0).blk t).view.emb y) = V m c main_arg0 i'
    refine congrArg _ (funext fun a => Fin.ext ?_)
    have hy0 : (y 0).val < 1 := (y 0).isLt
    match a with
    | ⟨0, _⟩ => show win0_0.index t (0 : Fin 4) * 1 + 1 * (y 0).val = (i' 0).val; omega
    | ⟨1, _⟩ => show win0_0.index t (1 : Fin 4) * 32 + 1 * (y 1).val = (i' 1).val; omega
    | ⟨2, _⟩ => show win0_0.index t (2 : Fin 4) * 128 + 1 * (y 2).val = (i' 2).val; omega
    | ⟨3, _⟩ => show win0_0.index t (3 : Fin 4) * 64 + 1 * (y 3).val = (i' 3).val; omega
  · intro y i' g0 g1 g2 g3
    show V m c main_arg1 (((cfg0.win 1).blk t).view.emb y) = V m c main_arg1 i'
    refine congrArg _ (funext fun a => Fin.ext ?_)
    have hy0 : (y 0).val < 1 := (y 0).isLt
    match a with
    | ⟨0, _⟩ => show win0_1.index t (0 : Fin 4) * 1 + 1 * (y 0).val = (i' 0).val; omega
    | ⟨1, _⟩ => show win0_1.index t (1 : Fin 4) * 32 + 1 * (y 1).val = (i' 1).val; omega
    | ⟨2, _⟩ => show win0_1.index t (2 : Fin 4) * 128 + 1 * (y 2).val = (i' 2).val; omega
    | ⟨3, _⟩ => show win0_1.index t (3 : Fin 4) * 64 + 1 * (y 3).val = (i' 3).val; omega
  · have hj0 : (j 0).val < 1 := (j 0).isLt
    show win0_2.index t (0 : Fin 4) * 1 + 1 * (j 0).val = win0_2.index t (0 : Fin 4); omega
  · show win0_2.index t (1 : Fin 4) * 64 + 1 * (j 1).val = win0_2.index t (1 : Fin 4) * 64 + (j 1).val; omega
  · show win0_2.index t (2 : Fin 4) * 256 + 1 * (j 2).val = (j 2).val; omega
  · show win0_2.index t (3 : Fin 4) * 64 + 1 * (j 3).val = (j 3).val; omega

/-- An index of the output array is in point `t`'s block iff each coordinate is in the block's range on its axis. -/
private theorem mem_block (t : Fin cfg0.N) (i : S16x256x256x64.Idx) :
    i ∈ ((cfg0.win 2).blk t).view.set ↔ ∀ a : Fin 4, win0_2.index t a * S1x64x256x64.size a ≤ (i a).val
      ∧ (i a).val < win0_2.index t a * S1x64x256x64.size a + S1x64x256x64.size a := by
  show i ∈ ((View.whole main_v0).slice (win0_2.rect t)).set ↔ _
  rw [View.set_slice_whole, Rect.mem_set_unit]
  exact Iff.rfl

/-- Every output cell lies in the block of the grid point (its batch, its row / 64). -/
private theorem covered (i : S16x256x256x64.Idx) :
    ∃ t : Fin cfg0.N, (cfg0.win 2).flush t = true ∧ i ∈ ((cfg0.win 2).blk t).view.set := by
  have h0 : (i 0).val < 16 := (i 0).isLt
  have h1 : (i 1).val < 256 := (i 1).isLt
  have h2 : (i 2).val < 256 := (i 2).isLt
  have h3 : (i 3).val < 64 := (i 3).isLt
  obtain ⟨t, ht⟩ := index_onto ⟨(i 0).val, h0⟩ ⟨(i 1).val / 64, by omega⟩
  have q0 : win0_2.index t (0 : Fin 4) = (i 0).val := congrFun ht 0
  have q1 : win0_2.index t (1 : Fin 4) = (i 1).val / 64 := congrFun ht 1
  have q2 : win0_2.index t (2 : Fin 4) = 0 := congrFun ht 2
  have q3 : win0_2.index t (3 : Fin 4) = 0 := congrFun ht 3
  refine ⟨t, flush0_2 t, ?_⟩
  rw [mem_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 64 ≤ (i 1).val ∧ (i 1).val < win0_2.index t (1 : Fin 4) * 64 + 64; omega
  | ⟨2, _⟩ => show win0_2.index t (2 : Fin 4) * 256 ≤ (i 2).val ∧ (i 2).val < win0_2.index t (2 : Fin 4) * 256 + 256; omega
  | ⟨3, _⟩ => show win0_2.index t (3 : Fin 4) * 64 ≤ (i 3).val ∧ (i 3).val < win0_2.index t (3 : Fin 4) * 64 + 64; omega

/-- After the run the output array is the unpooled array of the two argument arrays as launched. -/
theorem final (c : Dev nD) :
    (dats m 0 c).arrAt 2 cfg0.N
      = Cert.Unpool.unpool (m ((c : Thread nD τ).loc main_arg0)) (m ((c : Thread nD τ).loc main_arg1)) :=
  (dats m 0 c).arrAt_eq_of_cover 2 _ (fun t _ => flushed_eq m c t) covered

/-- Every weakly fair execution of the idealized kernel terminates with the output array at the unpooled array of the
    arguments, and the arguments unchanged. -/
theorem run : θ_run defs (onTc (τ := τ) (main (F := Ideal))) ⟨m, fun _ => 0, ρ⟩ fun r => ∀ c : Dev nD,
      r.2.mem ((c : Thread nD τ).loc main_v0)
        = Cert.Unpool.unpool (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.Unpooled

end
-- ==== Proof.Arith.lean ====
/-
  Arithmetic of flat positions. A position inside one batch of the output, (row · 256 + column) · 64 + channel with
  column < 256 and channel < 64, is row · 2¹⁴ + column · 2⁶ + channel: its quotient by 2¹⁴ is the row, the next eight
  bits the column, the low six bits the channel; halving row and column gives the quotient by 2¹⁵ and bits 7 to 13.
  A flat position among the pooled cells, ((batch · 128 + h) · 128 + w) · 64 + c, splits the same way.
-/
import Mathlib.Tactic.Ring

namespace Cert.Unpool.Arith

/-- A position b · 2²² + A with A below 2²² determines the batch b and the word A. -/
theorem split_position (A b i0 i1 i2 i3 : Nat) (hA : A < 4194304) (h1 : i1 < 256) (h2 : i2 < 256) (h3 : i3 < 64)
    (e : A + b * 4194304 = ((i0 * 256 + i1) * 256 + i2) * 64 + i3) :
    b = i0 ∧ A = i1 * 16384 + i2 * 64 + i3 := by
  omega

/-- The row of a word. -/
theorem word_row (A i1 i2 i3 : Nat) (h2 : i2 < 256) (h3 : i3 < 64) (e : A = i1 * 16384 + i2 * 64 + i3) :
    A / 16384 = i1 := by omega

/-- The column of a word. -/
theorem word_col (A i1 i2 i3 : Nat) (h2 : i2 < 256) (h3 : i3 < 64) (e : A = i1 * 16384 + i2 * 64 + i3) :
    A / 64 % 256 = i2 := by omega

/-- The channel of a word. -/
theorem word_chan (A i1 i2 i3 : Nat) (h3 : i3 < 64) (e : A = i1 * 16384 + i2 * 64 + i3) :
    A % 64 = i3 := by omega

/-- Half the row is the quotient by 2¹⁵. -/
theorem half_row (A : Nat) : A / 32768 = A / 16384 / 2 := by omega
/-- Half the column is bits 7 to 13. -/
theorem half_col (A : Nat) : A / 128 % 128 = A / 64 % 256 / 2 := by omega
/-- Bit 6 is the column's parity. -/
theorem par_col (A : Nat) : A / 64 % 2 = A / 64 % 256 % 2 := by omega

/-- A word is its row, its column and its channel. -/
theorem word_parts (A : Nat) : A = A / 16384 * 16384 + A / 64 % 256 * 64 + A % 64 := by omega

/-- A flat position among the pooled cells is its four coordinates. -/
theorem flat_parts (k : Nat) : k = ((k / 1048576 * 128 + k / 8192 % 128) * 128 + k / 64 % 128) * 64 + k % 64 := by
  omega

/-- The batch of a flat position given by its coordinates. -/
theorem batch_of_flat (i0 h w c : Nat) (hh : h < 128) (hw : w < 128) (hc : c < 64) :
    (((i0 * 128 + h) * 128 + w) * 64 + c) / 1048576 = i0 := by omega

/-- A number is twice its half plus its parity. -/
theorem two_parts (n : Nat) : n = 2 * (n / 2) + n % 2 := by omega

end Cert.Unpool.Arith
-- ==== Proof.RefValue.lean ====
/-
  What the reference computes, where every index word lies in its own window: the unpooled array.

  The reference flattens both inputs to 16·128·128·64 entries, adds b · 2²² to the word of batch b, and scatter-adds
  the values into a zero array of 16·256·256·64 entries at those positions. Over the extended reals the result at flat
  position n is zero plus the sum of the values whose position is n. Where every word lies in its own window, the
  position of pooled cell (b, h, w, c) is ((b · 256 + 2h + dh) · 256 + 2w + dw) · 64 + c with dh, dw the word's two
  parity bits; so at most one pooled cell lands on n — the cell of n's window — and it does exactly when its two
  bits are n's row and column parities.

  In order: the scatter's landing rule for these dimension numbers (one start component per update, read signed from
  the update's own row of the index array; no window); that row's word (the cell's word plus the batch offset, never
  negative and never wrapping under the contract); landing as an equation between natural numbers; uniqueness of the
  landing cell; and the sum, which has one term or none.
-/
import proofs.«429550_j46840913330177_3_alg».proof.Proof.Gen.ReferenceIdeal.Read
import proofs.«429550_j46840913330177_3_alg».proof.Proof.Bits
import proofs.«429550_j46840913330177_3_alg».proof.Proof.Arith
import Idealize.ShloMosaic.Lib.Pipeline.Value
import Idealize.ShloMosaic.Lib.ValueIdx
import Idealize.ShloMosaic.PureOps.Ideal.Laws
import Idealize.ShloMosaic.Lib.StableHlo.Predicate

noncomputable section

namespace Cert.ReferenceIdeal.Unpooled

open Cert.ReferenceIdeal Cert.ReferenceIdeal.Gen Cert.ReferenceIdeal.Read Idealize.ShloMosaic

/-- The accumulating scatter over the extended reals, at a position: the operand's entry plus the sum of the updates that
    land there. Stated for any shapes and dimension numbers. -/
theorem scatterAdd_apply {s si su : Shape} (d : ScatterDims s si su) {w : Nat} (x : FVec Ideal s .f32) (idx : IVec si w)
    (upd : FVec Ideal su .f32) (n : s.Idx) :
    Host.scatterAdd d x idx upd n
      = x n + ∑ j ∈ Finset.univ.filter (fun j => d.resultIdx? j idx = some n), upd j := rfl

/-- A sum over the members of a finite type that satisfy `p`, when only `j₀` can satisfy it: `f j₀` or nothing. -/
theorem sum_filter_of_unique {ι : Type} [Fintype ι] (p : ι → Prop) [DecidablePred p] (f : ι → EReal) (j₀ : ι)
    (huniq : ∀ j, p j → j = j₀) : ∑ j ∈ Finset.univ.filter p, f j = if p j₀ then f j₀ else 0 := by
  by_cases h : p j₀
  · rw [if_pos h]
    refine Finset.sum_eq_single_of_mem j₀ (Finset.mem_filter.2 ⟨Finset.mem_univ _, h⟩) ?_
    intro j hj hne
    exact absurd (huniq j (Finset.mem_filter.1 hj).2) hne
  · rw [if_neg h]
    refine Finset.sum_eq_zero ?_
    intro j hj
    have hp := (Finset.mem_filter.1 hj).2
    exact absurd (huniq j hp ▸ hp) h

abbrev sd := scatter_S67108864_S16777216x1_S16777216_n_0_0_1

theorem sdto_pos : 0 < sd.scatterDimsToOperandDims.length := by decide

/-- The slot of the index array that update `j` reads its one start component from. -/
abbrev slot (j : S16777216.Idx) : S16777216x1.Idx := sd.siIdx j ⟨0, sdto_pos⟩

theorem start_eq (idx : IVec S16777216x1 32) (j : S16777216.Idx) (a : Fin S67108864.rank) :
    sd.start j idx a = (idx (slot j)).toInt := by
  have h0 : a = (0 : Fin 1) := Subsingleton.elim _ _
  subst h0
  unfold ScatterDims.start
  have ha : (0 : Fin 1) ∈ sd.scatterDimsToOperandDims := by decide
  rw [dif_pos ha]
  have e : (⟨List.idxOf (0 : Fin 1) sd.scatterDimsToOperandDims, List.idxOf_lt_length_iff.2 ha⟩ : Fin sd.scatterDimsToOperandDims.length)
      = ⟨0, sdto_pos⟩ :=
    Fin.ext (show List.idxOf (0 : Fin 1) sd.scatterDimsToOperandDims = 0 by decide)
  rw [e]

theorem window_eq (j : S16777216.Idx) (a : Fin S67108864.rank) : sd.window j a = 0 := by
  have h0 : a = (0 : Fin 1) := Subsingleton.elim _ _
  subst h0
  unfold ScatterDims.window
  have ha : (0 : Fin 1) ∉ sd.sKept := by decide
  rw [dif_neg ha]

/-- Update `j` lands on operand position `n` exactly when the signed word in its slot is `n`. -/
theorem resultIdx_iff (idx : IVec S16777216x1 32) (j : S16777216.Idx) (n : S67108864.Idx) :
    sd.resultIdx? j idx = some n ↔ (idx (slot j)).toInt = ((n 0).val : Int) := by
  unfold ScatterDims.resultIdx?
  have hn : (n 0).val < 67108864 := (n 0).isLt
  constructor
  · intro h
    split at h
    · rename_i hr
      have h1 := congrFun (Option.some.inj h) 0
      have h2 := congrArg Fin.val h1
      simp only [start_eq, window_eq] at h2 hr
      have := (hr 0).1
      omega
    · exact absurd h (by simp)
  · intro h
    have hr : ∀ a, 0 ≤ sd.start j idx a + sd.window j a ∧ sd.start j idx a + sd.window j a < S67108864.size a := by
      intro a
      have h0 : a = (0 : Fin 1) := Subsingleton.elim _ _
      subst h0
      rw [start_eq, window_eq, h]
      refine ⟨by omega, ?_⟩
      show ((n 0).val : Int) + ((0 : Nat) : Int) < ((67108864 : Nat) : Int)
      omega
    rw [dif_pos hr]
    congr 1
    funext a
    have h0 : a = (0 : Fin 1) := Subsingleton.elim _ _
    subst h0
    apply Fin.ext
    show (sd.start j idx 0 + sd.window j 0).toNat = (n 0).val
    rw [start_eq, window_eq, h]
    omega

theorem rank1_val (j : S16777216.Idx) (x : Fin 1) : (j x).val = (j 0).val := by
  have : x = 0 := Subsingleton.elim _ _
  rw [this]

theorem slot_val (j : S16777216.Idx) : ((slot j) 0).val = (j 0).val := by
  show (sd.siIdx j ⟨0, sdto_pos⟩ 0).val = (j 0).val
  unfold ScatterDims.siIdx
  rw [dif_neg (by decide)]
  unfold ScatterDims.siCoord
  exact rank1_val j _

theorem word_slot (am : IVec S16x128x128x64 32) (j : S16777216.Idx) :
    val_main_v15 (F := Ideal) am (slot j) = val_main_v14 (F := Ideal) am j := by
  rw [val_main_v15_apply]
  congr 1
  funext a
  have h0 : a = (0 : Fin 1) := Subsingleton.elim _ _
  subst h0
  exact Fin.ext (slot_val j)

/-- The pooled cell at flat position `j`. -/
abbrev cell (j : S16777216.Idx) : S16x128x128x64.Idx := idx_main_v8 j

theorem word_v7 (am : IVec S16x128x128x64 32) (j : S16777216.Idx) :
    val_main_v7 (F := Ideal) am j = am (cell j) + BitVec.ofNat 32 ((j 0).val / 1048576) * 4194304#32 := by
  rw [val_main_v7_apply, val_main_v6_apply, val_main_v3_apply, val_main_v5_apply, val_main_v4_apply,
    val_main_v2_apply, val_main_v0_apply, val_main_v1_apply, val_main_c_apply]
  have hj : (j 0).val < 16777216 := (j 0).isLt
  have e1 : idx_main_v3 (idx_main_v7 j) = cell j := by
    funext a
    match a with
    | ⟨0, _⟩ => exact Fin.ext (by show ((j 0).val / 1048576 * 1048576 + (j 0).val % 1048576) / 1048576 = (j 0).val / 1048576; omega)
    | ⟨1, _⟩ => exact Fin.ext (by show ((j 0).val / 1048576 * 1048576 + (j 0).val % 1048576) / 8192 % 128 = (j 0).val / 8192 % 128; omega)
    | ⟨2, _⟩ => exact Fin.ext (by show ((j 0).val / 1048576 * 1048576 + (j 0).val % 1048576) / 64 % 128 = (j 0).val / 64 % 128; omega)
    | ⟨3, _⟩ => exact Fin.ext (by show ((j 0).val / 1048576 * 1048576 + (j 0).val % 1048576) % 64 = (j 0).val % 64; omega)
  rw [e1]
  rfl

open Cert.Unpool in
/-- Where the word of cell `cell j` lies in its window, the signed word of row `j` of the index array is the word plus
    the batch offset: nothing wraps and nothing is negative. -/
theorem word_v14 (am : IVec S16x128x128x64 32)
    (hwin : ∀ c : SIn.Idx, InWindow (am c) (c 1).val (c 2).val (c 3).val) (j : S16777216.Idx) :
    (val_main_v14 (F := Ideal) am j).toInt = (((am (cell j)).toNat + (j 0).val / 1048576 * 4194304 : Nat) : Int) := by
  have hj : (j 0).val < 16777216 := (j 0).isLt
  have hlt : (am (cell j)).toNat < 4194304 :=
    (hwin (cell j)).lt (by show (j 0).val / 8192 % 128 < 128; omega)
  have e7 : (val_main_v7 (F := Ideal) am j).toNat = (am (cell j)).toNat + (j 0).val / 1048576 * 4194304 := by
    rw [word_v7, BitVec.toNat_add, BitVec.toNat_mul, BitVec.toNat_ofNat]
    show ((am (cell j)).toNat + (j 0).val / 1048576 % 2 ^ 32 * 4194304 % 2 ^ 32) % 2 ^ 32 = _
    omega
  have hns : IntOp.cmpi .slt (val_main_v7 (F := Ideal) am j) 0#32 ≠ 1#1 := by
    intro h
    have := (StableHlo.Predicate.slt_iff_toNat (a := val_main_v7 (F := Ideal) am j) (b := 0#32) (by omega) (by decide)).1 h
    simp at this
  rw [val_main_v14_apply, val_main_v11_apply, val_main_v10_apply, val_main_c_0_apply]
  unfold Scalar.select
  have hns' : ¬ (IntOp.cmpi .slt (val_main_v7 (F := Ideal) am j) 0#32 = (1 : BitVec 1)) := hns
  rw [if_neg hns', StableHlo.Predicate.toInt_eq_toNat_of_lt (by omega), e7]

open Cert.Unpool in
/-- The flat position, among the pooled cells, of the cell whose window holds output cell `i`. -/
def home (i : SOut.Idx) : S16777216.Idx :=
  ValueIdx.ix1 (n := 16777216) ⟨(((i 0).val * 128 + (i 1).val / 2) * 128 + (i 2).val / 2) * 64 + (i 3).val, by
    have h0 : (i 0).val < 16 := (i 0).isLt; have h1 : (i 1).val < 256 := (i 1).isLt
    have h2 : (i 2).val < 256 := (i 2).isLt; have h3 : (i 3).val < 64 := (i 3).isLt; omega⟩

open Cert.Unpool in
theorem cell_home (i : SOut.Idx) : cell (home i) = src i := by
  have h0 : (i 0).val < 16 := (i 0).isLt; have h1 : (i 1).val < 256 := (i 1).isLt
  have h2 : (i 2).val < 256 := (i 2).isLt; have h3 : (i 3).val < 64 := (i 3).isLt
  funext a
  match a with
  | ⟨0, _⟩ => exact Fin.ext (by show ((((i 0).val * 128 + (i 1).val / 2) * 128 + (i 2).val / 2) * 64 + (i 3).val) / 1048576 = (i 0).val; omega)
  | ⟨1, _⟩ => exact Fin.ext (by show ((((i 0).val * 128 + (i 1).val / 2) * 128 + (i 2).val / 2) * 64 + (i 3).val) / 8192 % 128 = (i 1).val / 2; omega)
  | ⟨2, _⟩ => exact Fin.ext (by show ((((i 0).val * 128 + (i 1).val / 2) * 128 + (i 2).val / 2) * 64 + (i 3).val) / 64 % 128 = (i 2).val / 2; omega)
  | ⟨3, _⟩ => exact Fin.ext (by show ((((i 0).val * 128 + (i 1).val / 2) * 128 + (i 2).val / 2) * 64 + (i 3).val) % 64 = (i 3).val; omega)

section Lands
open Cert.Unpool Cert.Unpool.Arith

variable (am : IVec S16x128x128x64 32)
  (hwin : ∀ c : SIn.Idx, InWindow (am c) (c 1).val (c 2).val (c 3).val)

/-- Pooled cell `j` lands on output cell `i`: its scatter position is `i`'s flat position. -/
def Lands (i : SOut.Idx) (j : S16777216.Idx) : Prop :=
  sd.resultIdx? j (val_main_v15 (F := Ideal) am) = some (idx_main_v17 i)

include hwin in
/-- Landing, as an equation between natural numbers: word plus batch offset is the output cell's flat position. -/
theorem lands_iff (i : SOut.Idx) (j : S16777216.Idx) :
    Lands am i j ↔ (am (cell j)).toNat + (j 0).val / 1048576 * 4194304
      = (((i 0).val * 256 + (i 1).val) * 256 + (i 2).val) * 64 + (i 3).val := by
  unfold Lands
  rw [resultIdx_iff, word_slot, word_v14 am hwin j]
  show (((am (cell j)).toNat + (j 0).val / 1048576 * 4194304 : Nat) : Int)
      = (((((i 0).val * 256 + (i 1).val) * 256 + (i 2).val) * 64 + (i 3).val : Nat) : Int) ↔ _
  exact Int.ofNat_inj

/-- The arithmetic of uniqueness: a word `A` in the window of the cell at flat position `k`, landing on (i0, i1, i2, i3),
    forces `k` to be the flat position of (i0, i1 / 2, i2 / 2, i3). -/
theorem flat_of_lands (A k i0 i1 i2 i3 : Nat) (hA : A < 4194304) (h1 : i1 < 256) (h2 : i2 < 256) (h3 : i3 < 64)
    (w1 : A / 32768 = k / 8192 % 128) (w2 : A / 128 % 128 = k / 64 % 128) (w3 : A % 64 = k % 64)
    (e : A + k / 1048576 * 4194304 = ((i0 * 256 + i1) * 256 + i2) * 64 + i3) :
    k = ((i0 * 128 + i1 / 2) * 128 + i2 / 2) * 64 + i3 := by
  obtain ⟨eb, eA⟩ := split_position A (k / 1048576) i0 i1 i2 i3 hA h1 h2 h3 e
  have r1 := word_row A i1 i2 i3 h2 h3 eA
  have r2 := word_col A i1 i2 i3 h2 h3 eA
  have r3 := word_chan A i1 i2 i3 h3 eA
  have e1 : k / 8192 % 128 = i1 / 2 := by rw [← w1, half_row, r1]
  have e2 : k / 64 % 128 = i2 / 2 := by rw [← w2, half_col, r2]
  have e3 : k % 64 = i3 := by rw [← w3, r3]
  calc k = ((k / 1048576 * 128 + k / 8192 % 128) * 128 + k / 64 % 128) * 64 + k % 64 := flat_parts k
    _ = ((i0 * 128 + i1 / 2) * 128 + i2 / 2) * 64 + i3 := by rw [eb, e1, e2, e3]

include hwin in
/-- Only the cell of `i`'s own window can land on `i`: a word in the window of (h, w, c) names a row in {2h, 2h + 1},
    a column in {2w, 2w + 1} and the channel c, so the position determines batch, h, w and c. -/
theorem lands_unique (i : SOut.Idx) (j : S16777216.Idx) (h : Lands am i j) : j = home i := by
  have hj : (j 0).val < 16777216 := (j 0).isLt
  have h1 : (i 1).val < 256 := (i 1).isLt
  have h2 : (i 2).val < 256 := (i 2).isLt
  have h3 : (i 3).val < 64 := (i 3).isLt
  have e := (lands_iff am hwin i j).1 h
  have hlt : (am (cell j)).toNat < 4194304 :=
    (hwin (cell j)).lt (by show (j 0).val / 8192 % 128 < 128; exact Nat.mod_lt _ (by decide))
  obtain ⟨w1, w2, w3⟩ := hwin (cell j)
  have ek := flat_of_lands (am (cell j)).toNat (j 0).val (i 0).val (i 1).val (i 2).val (i 3).val hlt h1 h2 h3 w1 w2 w3 e
  funext a
  have ha : a = (0 : Fin 1) := Subsingleton.elim _ _
  subst ha
  exact Fin.ext ek

/-- The arithmetic of landing at home: a word `A` in the window of (i1 / 2, i2 / 2, i3) is the position
    (i1 · 256 + i2) · 64 + i3 exactly when its bits 14 and 6 are the parities of i1 and i2. -/
theorem home_arith (A i0 i1 i2 i3 : Nat) (hA : A < 4194304) (h1 : i1 < 256) (h2 : i2 < 256) (h3 : i3 < 64)
    (w1 : A / 32768 = i1 / 2) (w2 : A / 128 % 128 = i2 / 2) (w3 : A % 64 = i3) :
    A + i0 * 4194304 = ((i0 * 256 + i1) * 256 + i2) * 64 + i3 ↔ A / 16384 % 2 = i1 % 2 ∧ A / 64 % 2 = i2 % 2 := by
  constructor
  · intro e
    obtain ⟨_, eA⟩ := split_position A i0 i0 i1 i2 i3 hA h1 h2 h3 e
    have r1 := word_row A i1 i2 i3 h2 h3 eA
    have r2 := word_col A i1 i2 i3 h2 h3 eA
    exact ⟨by rw [r1], by rw [par_col, r2]⟩
  · rintro ⟨p1, p2⟩
    have r1 : A / 16384 = i1 :=
      calc A / 16384 = 2 * (A / 16384 / 2) + A / 16384 % 2 := two_parts _
        _ = 2 * (i1 / 2) + i1 % 2 := by rw [← half_row, w1, p1]
        _ = i1 := (two_parts i1).symm
    have r2 : A / 64 % 256 = i2 :=
      calc A / 64 % 256 = 2 * (A / 64 % 256 / 2) + A / 64 % 256 % 2 := two_parts _
        _ = 2 * (i2 / 2) + i2 % 2 := by rw [← half_col, ← par_col, w2, p2]
        _ = i2 := (two_parts i2).symm
    have eA : A = i1 * 16384 + i2 * 64 + i3 :=
      calc A = A / 16384 * 16384 + A / 64 % 256 * 64 + A % 64 := word_parts A
        _ = i1 * 16384 + i2 * 64 + i3 := by rw [r1, r2, w3]
    rw [eA]
    ring

include hwin in
/-- The cell of `i`'s own window lands on `i` exactly when its word's parity bits are `i`'s row and column parities. -/
theorem lands_home_iff (i : SOut.Idx) :
    Lands am i (home i) ↔ (rowBit (am (src i))).toNat = (i 1).val % 2 ∧ (colBit (am (src i))).toNat = (i 2).val % 2 := by
  have h1 : (i 1).val < 256 := (i 1).isLt
  have h2 : (i 2).val < 256 := (i 2).isLt
  have h3 : (i 3).val < 64 := (i 3).isLt
  have g1 : (i 1).val / 2 < 128 := Nat.div_lt_of_lt_mul h1
  have g2 : (i 2).val / 2 < 128 := Nat.div_lt_of_lt_mul h2
  rw [lands_iff am hwin, cell_home]
  have hw := hwin (src i)
  have hlt : (am (src i)).toNat < 4194304 := hw.lt g1
  obtain ⟨w1, w2, w3⟩ := hw
  have hlt31 : (am (src i)).toNat < 2 ^ 31 := Nat.lt_trans hlt (by decide)
  rw [rowBit_toNat _ hlt31, colBit_toNat _ hlt31]
  have hb : ((home i) 0).val / 1048576 = (i 0).val :=
    batch_of_flat (i 0).val ((i 1).val / 2) ((i 2).val / 2) (i 3).val g1 g2 h3
  rw [hb]
  exact home_arith (am (src i)).toNat (i 0).val (i 1).val (i 2).val (i 3).val hlt h1 h2 h3 w1 w2 w3

end Lands

/-- Where every index word lies in the window of its own pooled cell, the reference's result is the unpooled array. -/
theorem result_eq (x : FVec Ideal Cert.Unpool.SIn .f32) (am : IVec Cert.Unpool.SIn 32)
    (hwin : ∀ j : Cert.Unpool.SIn.Idx, Cert.Unpool.InWindow (am j) (j 1).val (j 2).val (j 3).val) :
    val_main_v17 (F := Ideal) x am = Cert.Unpool.unpool x am := by
  funext i
  rw [val_main_v17_apply]
  unfold val_main_v16
  rw [scatterAdd_apply, val_main_v9_apply, val_main_cst_apply, Ideal.ofBits_def, Ideal.ofBits_zero_f32, zero_add]
  refine (sum_filter_of_unique _ _ (home i) ?_).trans ?_
  · intro j h
    exact lands_unique am hwin i j h
  · have ec : idx_main_v8 (home i) = Cert.Unpool.src i := cell_home i
    rw [val_main_v8_apply, ec]
    unfold Cert.Unpool.unpool
    exact if_congr (lands_home_iff am hwin i) rfl rfl

end Cert.ReferenceIdeal.Unpooled

end
-- ==== Proof.lean ====
/-
  Max-unpooling over 2×2 windows: a kernel that places each pooled value by the two parity bits of its index word,
  against a reference that scatter-adds the pooled values at their index words.

  The two agree where every index word lies in the window of its own pooled cell — the operator's contract on its
  index input, which the precondition states beside the finiteness of the float input. There both compute the SAME
  array (Proof/Spec.lean): at output cell (b, r, q, ch) the pooled value of cell (b, r / 2, q / 2, ch) when that
  cell's word has row parity r mod 2 and column parity q mod 2, and zero otherwise.
  * The kernel computes that array for any index words at all (Proof/KernelValue.lean): it reads nothing of a word but
    its bits 14 and 6.
  * The reference's sum at an output cell has at most one term under the contract (Proof/RefValue.lean): distinct
    pooled cells have disjoint windows, so only the cell of the output cell's own window can land on it.
  * The contract is read back from the printed precondition (Proof/Window.lean, over the word arithmetic of
    Proof/Bits.lean).
  No law of the extended reals beyond 0 + x = x is used, so the finiteness half of the precondition is never opened.
  The ideal pass rewrote nothing, so the idealization conjunct is trivial; the three frames are the generated ones.
-/
import proofs.«429550_j46840913330177_3_alg».proof.Defs
import proofs.«429550_j46840913330177_3_alg».proof.Proof.Gen.Kernel
import proofs.«429550_j46840913330177_3_alg».proof.Proof.Gen.Kernel.Skeleton
import proofs.«429550_j46840913330177_3_alg».proof.Proof.Gen.Kernel.Launch
import proofs.«429550_j46840913330177_3_alg».proof.Proof.Gen.Kernel.Points
import proofs.«429550_j46840913330177_3_alg».proof.Proof.Gen.Kernel.Frame
import proofs.«429550_j46840913330177_3_alg».proof.Proof.Gen.KernelIdeal
import proofs.«429550_j46840913330177_3_alg».proof.Proof.Gen.KernelIdeal.Skeleton
import proofs.«429550_j46840913330177_3_alg».proof.Proof.Gen.KernelIdeal.Launch
import proofs.«429550_j46840913330177_3_alg».proof.Proof.Gen.KernelIdeal.Points
import proofs.«429550_j46840913330177_3_alg».proof.Proof.Gen.KernelIdeal.Frame
import proofs.«429550_j46840913330177_3_alg».proof.Proof.Gen.ReferenceIdeal
import proofs.«429550_j46840913330177_3_alg».proof.Proof.Gen.Pre_finite_inputs
import proofs.«429550_j46840913330177_3_alg».proof.Proof.Gen.KernelIdeal.Value
import proofs.«429550_j46840913330177_3_alg».proof.Proof.Gen.ReferenceIdeal.Run
import proofs.«429550_j46840913330177_3_alg».proof.Proof.Gen.ReferenceIdeal.Read
import proofs.«429550_j46840913330177_3_alg».proof.Proof.Window
import proofs.«429550_j46840913330177_3_alg».proof.Proof.KernelValue
import proofs.«429550_j46840913330177_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The reference runs and keeps its arguments: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments and satisfy the precondition, the kernel's output array and the
    reference's result are both the unpooled array of the arguments. -/
theorem algebraic : Cert.algebraic_KernelIdeal_ReferenceIdeal := by
  intro m ρ m' ρ' hpre hagree
  refine ⟨fun c => Cert.Unpool.unpool (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Unpooled.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2]
  exact Cert.ReferenceIdeal.Unpooled.result_eq _ _ (Cert.Unpool.window_of_pre _ _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
